-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x4096x2048 .f32) (main_arg1 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S4x4096x2048 : Shape := ⟨3, ![4, 4096, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .f32⟩
  | .hbm, ⟨5, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x2048_S16384x2048 : S4x4096x2048.ShapeCasts S16384x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S4x4096x2048 : S16384x2048.ShapeCasts S4x4096x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x4096x2048, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x2048, .f32⟩
  | .hbm, ⟨14, _⟩ => ⟨S4x4096x2048, .f32⟩
  | .hbm, ⟨15, _⟩ => ⟨S1x1x2048, .f32⟩
  | .hbm, ⟨16, _⟩ => ⟨S4x4096x2048, .f32⟩
  | .hbm, ⟨17, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)

variable [Facts₀]

class Facts : Prop extends Facts₀ where

variable [Facts]
-- ==== Proof.Spec.lean ====
/-
  RMS normalisation of the rows of a matrix, as one function of its arguments.

  A row `X[r, ·]` of length 2048 is scaled by `rsqrt (mean of its squares + ε)` and then, column by column, by the
  gain `G[c]`:   out[r, c] = (X[r, c] · rsqrt ((Σ_k X[r, k]²) / 2048 + ε)) · G[c].
  The constants are kept as the float words both programs print (`2048.0` and `ε = 1e-5` rounded to f32): the
  same word on both sides is never evaluated.

  The same rule is stated twice, over the two layouts the programs use: over a matrix `[a, 2048]` with the gain as
  a one-row matrix (`normRows`), and over the stack `[4, 4096, 2048]` with the gain as a vector (`normStack`).
  Row `(b, s)` of the stack is row `b · 4096 + s` of the flattened matrix `[16384, 2048]`, so flattening, normalising
  the rows and restoring the stack is `normStack` (`unflatten_normRows_flatten`).
-/
import Idealize.ShloMosaic.Lib.Pipeline.Value
import Idealize.ShloMosaic.Lib.ValueIdx
import Idealize.ShloMosaic.Lib.ValueLayout
import Idealize.ShloMosaic.PureOps.Ideal.Laws

noncomputable section

namespace Cert.RmsNorm

open Idealize.ShloMosaic Idealize.ShloMosaic.ValueIdx

/-- The factor a row is scaled by, from the sum of its squares: `rsqrt (ss / 2048 + ε)`. -/
def scale (ss : EReal) : EReal :=
  Ideal.rsqrt (Ideal.div ss (Ideal.ofBits .f32 0x45000000#32) + Ideal.ofBits .f32 0x3727C5AC#32)

/-- The sum of the squares of row `p` of a matrix with 2048 columns. -/
def rowSq {a : ℕ} (X : (⟨2, ![a, 2048]⟩ : Shape).Idx → EReal) (p : Fin a) : EReal :=
  ∑ k : Fin 2048, X (ix2 p k) * X (ix2 p k)

/-- Every row of `X` normalised and scaled by the one-row gain `G`. -/
def normRows {a : ℕ} (X : (⟨2, ![a, 2048]⟩ : Shape).Idx → EReal) (G : (⟨2, ![1, 2048]⟩ : Shape).Idx → EReal) :
    (⟨2, ![a, 2048]⟩ : Shape).Idx → EReal :=
  fun i => X i * scale (rowSq X (i 0)) * G (ix2 (0 : Fin 1) (i 1))

theorem normRows_apply {a : ℕ} (X : (⟨2, ![a, 2048]⟩ : Shape).Idx → EReal) (G : (⟨2, ![1, 2048]⟩ : Shape).Idx → EReal)
    (p : Fin a) (q : Fin 2048) :
    normRows X G (ix2 p q) = X (ix2 p q) * scale (rowSq X p) * G (ix2 (0 : Fin 1) q) := rfl

/-- The sum of the squares of row `(b, s)` of the stack. -/
def stackSq (x : (⟨3, ![4, 4096, 2048]⟩ : Shape).Idx → EReal) (b : Fin 4) (s : Fin 4096) : EReal :=
  ∑ k : Fin 2048, x (ix3 b s k) * x (ix3 b s k)

/-- Every row of the stack normalised and scaled by the gain vector `g`. -/
def normStack (x : (⟨3, ![4, 4096, 2048]⟩ : Shape).Idx → EReal) (g : (⟨1, ![2048]⟩ : Shape).Idx → EReal) :
    (⟨3, ![4, 4096, 2048]⟩ : Shape).Idx → EReal :=
  fun i => x i * scale (stackSq x (i 0) (i 1)) * g (ix1 (i 2))

theorem normStack_apply (x : (⟨3, ![4, 4096, 2048]⟩ : Shape).Idx → EReal) (g : (⟨1, ![2048]⟩ : Shape).Idx → EReal)
    (b : Fin 4) (s : Fin 4096) (c : Fin 2048) :
    normStack x g (ix3 b s c) = x (ix3 b s c) * scale (stackSq x b s) * g (ix1 c) := rfl

/-! ## Flattening the stack and restoring it -/

/-- Row `(b, s)` of the stack is row `b · 4096 + s` of the matrix. -/
def flatRow (b : Fin 4) (s : Fin 4096) : Fin 16384 := ⟨b.val * 4096 + s.val, by have := b.isLt; have := s.isLt; omega⟩

/-- The stack flattened to a matrix reads, at row `b · 4096 + s` and column `c`, the stack at `(b, s, c)`: the two
    entries have the same row-major position. -/
theorem flatten_apply {α : Type} (x : (⟨3, ![4, 4096, 2048]⟩ : Shape).Idx → α)
    (h : (⟨3, ![4, 4096, 2048]⟩ : Shape).ShapeCasts ⟨2, ![16384, 2048]⟩) (b : Fin 4) (s : Fin 4096) (c : Fin 2048) :
    shapeCast ⟨2, ![16384, 2048]⟩ x h (ix2 (flatRow b s) c) = x (ix3 b s c) :=
  shapeCast_apply x h _ _ (by
    rw [Shape.rowMajor_val_three, Shape.rowMajor_val_two]
    rfl)

/-- A matrix restored to the stack reads, at `(b, s, c)`, the matrix at row `b · 4096 + s` and column `c`. -/
theorem unflatten_apply {α : Type} (X : (⟨2, ![16384, 2048]⟩ : Shape).Idx → α)
    (h : (⟨2, ![16384, 2048]⟩ : Shape).ShapeCasts ⟨3, ![4, 4096, 2048]⟩) (b : Fin 4) (s : Fin 4096) (c : Fin 2048) :
    shapeCast ⟨3, ![4, 4096, 2048]⟩ X h (ix3 b s c) = X (ix2 (flatRow b s) c) :=
  shapeCast_apply X h _ _ (by
    rw [Shape.rowMajor_val_three, Shape.rowMajor_val_two]
    rfl)

/-- Flatten the stack, lay the gain out as one row, normalise the rows of the matrix, restore the stack: that is the
    stack normalised row by row. Row `(b, s)` of the stack and row `b · 4096 + s` of the matrix hold the same
    entries, so their sums of squares agree term by term. -/
theorem unflatten_normRows_flatten (x : (⟨3, ![4, 4096, 2048]⟩ : Shape).Idx → EReal) (g : (⟨1, ![2048]⟩ : Shape).Idx → EReal)
    (h32 : (⟨3, ![4, 4096, 2048]⟩ : Shape).ShapeCasts ⟨2, ![16384, 2048]⟩)
    (h12 : (⟨1, ![2048]⟩ : Shape).ShapeCasts ⟨2, ![1, 2048]⟩)
    (h23 : (⟨2, ![16384, 2048]⟩ : Shape).ShapeCasts ⟨3, ![4, 4096, 2048]⟩) :
    shapeCast ⟨3, ![4, 4096, 2048]⟩
        (normRows (shapeCast ⟨2, ![16384, 2048]⟩ x h32) (shapeCast ⟨2, ![1, 2048]⟩ g h12)) h23
      = normStack x g := by
  funext i
  obtain ⟨b, s, c, rfl⟩ : ∃ (b : Fin 4) (s : Fin 4096) (c : Fin 2048), i = ix3 b s c := ⟨i 0, i 1, i 2, eq_ix3 i⟩
  rw [unflatten_apply, normRows_apply, normStack_apply, flatten_apply, shapeCast_a_1a_apply]
  have hsq : rowSq (shapeCast ⟨2, ![16384, 2048]⟩ x h32) (flatRow b s) = stackSq x b s :=
    Finset.sum_congr rfl fun k _ => by rw [flatten_apply]
  rw [hsq]

/-! ## A lane sum read at a row -/

/-- The row `(p, k)` is what the reduction along the columns inserts column `k` into at row `p`. -/
theorem lift_row {a b : ℕ} (h : (⟨2, ![a, b]⟩ : Shape).Reduces [1] ⟨1, ![a]⟩) (p : Fin a) (k : Fin b) :
    h.lift (ix1 p) k = ix2 p k :=
  funext fun d => Fin.ext (by match d with | ⟨0, _⟩ => rfl | ⟨1, _⟩ => rfl)

/-- A float sum along the columns of a matrix, from the zero accumulator, is at row `p` the sum of that row. -/
theorem laneSum_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

/-! ## A block of the matrix -/

/-- Normalising the rows of a block gives the block of the normalised matrix: if row `j 0` of the block `xb` is row
    `i 0` of the matrix `X`, the columns agree, and the gain rows agree at that column, then the block's result at `j`
    is the matrix's at `i`. A row's scale depends on that row alone, and a block holds whole rows. -/
theorem normRows_block {a a' : ℕ} (X : (⟨2, ![a, 2048]⟩ : Shape).Idx → EReal) (G : (⟨2, ![1, 2048]⟩ : Shape).Idx → EReal)
    (xb : (⟨2, ![a', 2048]⟩ : Shape).Idx → EReal) (gb : (⟨2, ![1, 2048]⟩ : Shape).Idx → EReal)
    (j : (⟨2, ![a', 2048]⟩ : Shape).Idx) (i : (⟨2, ![a, 2048]⟩ : Shape).Idx)
    (hcol : j 1 = i 1)
    (hx : ∀ k : Fin 2048, xb (ix2 (j 0) k) = X (ix2 (i 0) k))
    (hg : gb (ix2 (0 : Fin 1) (j 1)) = G (ix2 (0 : Fin 1) (i 1))) :
    normRows xb gb j = normRows X G i := by
  have hsq : rowSq xb (j 0) = rowSq X (i 0) := Finset.sum_congr rfl fun k _ => by rw [hx k]
  have hj : xb j = X i := by
    rw [eq_ix2 j, eq_ix2 i]
    show xb (ix2 (j 0) (j 1)) = X (ix2 (i 0) (i 1))
    rw [hx (j 1), hcol]
  unfold normRows
  rw [hj, hsq, hg]

end Cert.RmsNorm

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.Payload.lean ====
/-
  What the kernel body stores, from the two blocks it loads, is the block's rows normalised.

  The body squares the `[512, 2048]` block, sums each row along the lanes, keeps the sums as a column, divides by
  2048, adds ε, takes the reciprocal square root, lays the column back across the row and multiplies the entry by it
  and then by the gain row laid down the rows. Read at `(p, q)`: the column and its broadcast keep `p`, the gain's
  broadcast keeps `q`, and the lane sum at `p` is the sum of row `p`.
-/
import proofs.«116455_j56607668961691_1_alg».proof.Proof.Gen.KernelIdeal.Skeleton
import proofs.«116455_j56607668961691_1_alg».proof.Proof.Spec
import proofs.«116455_j56607668961691_1_alg».proof.Proof.LibColumn

noncomputable section

namespace Cert.RmsNorm.Kernel

open Idealize.ShloMosaic Idealize.ShloMosaic.ValueIdx Cert.KernelIdeal Cert.KernelIdeal.Gen Cert.LibColumn

/-- The reciprocal square root of a vector, entry by entry. -/
theorem rsqrt_apply {s : Shape} (a : FVec Ideal s .f32) (i : s.Idx) : rsqrt a i = Ideal.rsqrt (a i) := rfl

/-- The stored value at `(p, q)`. -/
theorem payload_apply (x : Vec Ideal S512x2048 .f32) (g : Vec Ideal S1x2048 .f32) (p : Fin 512) (q : Fin 2048) :
    k0_pay1 (F := Ideal) x g (ix2 p q) = normRows x g (ix2 p q) := by
  unfold k0_pay1
  simp only [shapeCast_self]
  rw [mulf_apply, mulf_apply, broadcastTo_1b_ab_apply, broadcastTo_a1_ab_apply]
  rw [rsqrt_apply, addf_apply, divf_apply, broadcast_apply, broadcast_apply, shapeCast_a_a1_apply, laneSum_apply,
    normRows_apply]
  rfl

/-- The stored block is the loaded block's rows normalised by the loaded gain row. -/
theorem payload_eq (x : Vec Ideal S512x2048 .f32) (g : Vec Ideal S1x2048 .f32) :
    k0_pay1 (F := Ideal) x g = normRows x g := by
  funext j
  obtain ⟨p, q, rfl⟩ : ∃ (p : Fin 512) (q : Fin 2048), j = ix2 p q := ⟨j 0, j 1, eq_ix2 j⟩
  exact payload_apply x g p q

end Cert.RmsNorm.Kernel

end
-- ==== Proof.KernelValue.lean ====
/-
  What the idealized kernel program leaves in its result.

  The program flattens the stack `[4, 4096, 2048]` to the matrix `[16384, 2048]`, lays the gain out as one row, runs
  the kernel on a grid of 32 points, and restores the stack. Point `t` reads rows `512 t … 512 t + 511` of the matrix
  (whole rows: all 2048 columns) and the gain row, and writes back the same rows of the result. Since a row's scale
  depends on that row alone, what point `t` writes back is block `t` of the matrix normalised row by row; the 32
  blocks tile the result, so the result matrix is `normRows` of the flattened arguments, and the restored stack is
  `normStack` of the arguments themselves.
-/
import proofs.«116455_j56607668961691_1_alg».proof.Proof.Gen.KernelIdeal.Frame
import proofs.«116455_j56607668961691_1_alg».proof.Proof.Payload
import Idealize.ShloMosaic.Lib.Pipeline.Value
import Idealize.ShloMosaic.Lib.StableHlo.Run

set_option maxRecDepth 16384

noncomputable section

namespace Cert.RmsNorm.Kernel

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-! ## The arrays the region finds -/

/-- The matrix the region reads: the first argument flattened. -/
abbrev xArr (c : Dev nD) : Vec Ideal S16384x2048 .f32 := V m c main_v0
/-- The gain row the region reads: the second argument as one row. -/
abbrev gArr (c : Dev nD) : Vec Ideal S1x2048 .f32 := V m c main_v1

theorem xArr_eq (c : Dev nD) :
    xArr m c = shapeCast S16384x2048 (m ((c : Thread nD τ).loc main_arg0)) shapeCasts_S4x4096x2048_S16384x2048 := by
  show StableHlo.after hostOps0 (fun b => m (c, b)) (Proc.devRef .tc main_v0) = _
  after_results
  rfl

theorem gArr_eq (c : Dev nD) :
    gArr m c = shapeCast S1x2048 (m ((c : Thread nD τ).loc main_arg1)) shapeCasts_S2048_S1x2048 := by
  show StableHlo.after hostOps0 (fun b => m (c, b)) (Proc.devRef .tc main_v1) = _
  after_results
  rfl

/-! ## The grid -/

theorem zero_offsets : (![0, 0] : Fin 2 → Nat) = fun _ => 0 := funext fun a => by fin_cases a <;> rfl

/-- The printed index maps over the 32 points: the matrix and the result move together down the rows, all 2048
    columns in one block; the gain row stays. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 31 :=
  (by decide +kernel : ∀ t : Fin grid0.N, _)

/-- Every block of rows is some point's. -/
theorem idx_onto : ∀ q0 : Fin 32, ∃ t : Fin cfg0.N, win0_2.index t = ![q0.val, 0] :=
  (by decide +kernel : ∀ q0 : Fin 32, ∃ t : Fin grid0.N, win0_2.index t = ![q0.val, 0])

/-! ## What a point writes back -/

theorem flushed_eq (c : Dev nD) (t : Fin cfg0.N) :
    (dats m 0 c).flushed 2 t = ((cfg0.win 2).blk t).view.read (Elt Ideal) (normRows (xArr m c) (gArr m c)) := by
  show (cfg0.win 2).cut (grid0.coords t) ((dats m 0 c).after 2 t) = _
  rw [after0_2]
  unfold out0_2
  rw [View.canon_unit_zero zero_offsets]
  simp only [View.ld_unit_zero (S := S512x2048) zero_offsets, View.ld_unit_zero (S := S1x2048) zero_offsets]
  rw [payload_eq]
  obtain ⟨e0, e1, e2, e3, e4, e5⟩ := idx_facts t
  funext j
  show normRows (a := 512) (iblk m c 0 t) (iblk m c 1 t) j
    = normRows (a := 16384) (xArr m c) (gArr m c) (((cfg0.win 2).blk t).view.emb j)
  refine normRows_block (a := 16384) (a' := 512) (xArr m c) (gArr m c) (iblk m c 0 t) (iblk m c 1 t) j
    (((cfg0.win 2).blk t).view.emb j) ?_ (fun k => ?_) ?_
  · apply Fin.ext
    show (j 1).val = win0_2.index t (1 : Fin 2) * 2048 + 1 * (j 1).val
    omega
  · show V m c main_v0 (((cfg0.win 0).blk t).view.emb (ix2 (j 0) k))
      = V m c main_v0 (ix2 ((((cfg0.win 2).blk t).view.emb j) 0) k)
    refine congrArg (V m c main_v0) (funext fun a => Fin.ext ?_)
    match a with
    | ⟨0, _⟩ =>
      show win0_0.index t (0 : Fin 2) * 512 + 1 * (j 0).val = win0_2.index t (0 : Fin 2) * 512 + 1 * (j 0).val
      omega
    | ⟨1, _⟩ =>
      show win0_0.index t (1 : Fin 2) * 2048 + 1 * k.val = k.val
      omega
  · show V m c main_v1 (((cfg0.win 1).blk t).view.emb (ix2 (0 : Fin 1) (j 1)))
      = V m c main_v1 (ix2 (0 : Fin 1) ((((cfg0.win 2).blk t).view.emb j) 1))
    refine congrArg (V m c main_v1) (funext fun a => Fin.ext ?_)
    match a with
    | ⟨0, _⟩ =>
      show win0_1.index t (0 : Fin 2) * 1 + 1 * 0 = 0
      omega
    | ⟨1, _⟩ =>
      show win0_1.index t (1 : Fin 2) * 2048 + 1 * (j 1).val = win0_2.index t (1 : Fin 2) * 2048 + 1 * (j 1).val
      omega

/-! ## The blocks tile the result -/

/-- A row and column lie in point `t`'s block iff each is in the block's range. -/
theorem mem_blk (t : Fin cfg0.N) (i : S16384x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v2).slice (win0_2.rect t)).set ↔ _
  rw [View.set_slice_whole, Rect.mem_set_unit]
  exact Iff.rfl

/-- Row `r` is written back by the point whose block index is `r / 512`. -/
theorem cover (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 2048 ≤ (i 1).val ∧ (i 1).val < win0_2.index t (1 : Fin 2) * 2048 + 2048
    omega

/-- The result matrix after the region: the flattened argument normalised row by row. -/
theorem final (c : Dev nD) : (dats m 0 c).arrAt 2 cfg0.N = normRows (a := 16384) (xArr m c) (gArr m c) :=
  (dats m 0 c).arrAt_eq_of_cover 2 (normRows (a := 16384) (xArr m c) (gArr m c)) (fun t _ => flushed_eq m c t) cover

/-! ## The stack restored -/

/-- The last operation restores the stack from the result matrix. -/
theorem tail_eq (c : Dev nD) :
    Pipeline.afterTail₀ cfgs (dats m) 0 (V0 m) [hostOps1] c main_v3
      = shapeCast S4x4096x2048 (normRows (a := 16384) (xArr m c) (gArr m c)) shapeCasts_S16384x2048_S4x4096x2048 := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = normRows (a := 16384) (xArr m c) (gArr m c) :=
    (Pipeline.withArrays_arr spec0 launch0.win.arr_inj c _ _ 2).trans (final m c)
  rw [hw]
  rfl

/-- The restored stack is the arguments' stack normalised row by row. -/
theorem stack_eq (c : Dev nD) :
    shapeCast S4x4096x2048 (normRows (a := 16384) (xArr m c) (gArr m c)) shapeCasts_S16384x2048_S4x4096x2048
      = normStack (m ((c : Thread nD τ).loc main_arg0)) (m ((c : Thread nD τ).loc main_arg1)) := by
  rw [xArr_eq, gArr_eq]
  exact unflatten_normRows_flatten _ _ _ _ _

/-! ## The run, read -/

/-- Every weakly fair execution of the idealized kernel program ends with its result at the arguments' stack
    normalised row by row, the arguments unchanged. -/
theorem run : θ_run defs (onTc (τ := τ) (main (F := Ideal))) ⟨m, fun _ => 0, ρ⟩ fun r => ∀ c : Dev nD,
      r.2.mem ((c.tc : Thread nD τ).loc main_v3)
        = normStack (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans
          ((tail_eq m c).trans (stack_eq m c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.RmsNorm.Kernel

end
-- ==== Proof.RefValue.lean ====
/-
  The reference, read index by index, is the stack normalised row by row.

  Its operations in order: the squares, their sum along the last axis from a zero initial value, that sum kept as a
  column, divided by 2048, plus ε, the reciprocal square root, laid back across the row, times the entry, times the
  gain laid across the rows. At `(b, s, c)` each layout step keeps `(b, s)` and the gain keeps `c`; the zero initial
  value adds nothing.
-/
import proofs.«116455_j56607668961691_1_alg».proof.Proof.Gen.ReferenceIdeal.Read
import proofs.«116455_j56607668961691_1_alg».proof.Proof.Spec

noncomputable section

namespace Cert.RmsNorm.Reference

open Idealize.ShloMosaic Idealize.ShloMosaic.ValueIdx Cert.ReferenceIdeal Cert.ReferenceIdeal.Read

/-- The entry the row sum reads for `(b, s, c)` at position `k` is `(b, s, k)`. -/
theorem sum_index (b : Fin 4) (s : Fin 4096) (c : Fin 2048) (k : Fin 2048) :
    idx_main_v1 (idx_main_v2 (idx_main_v8 (ix3 b s c))) k = ix3 b s k :=
  funext fun a => Fin.ext (by match a with | ⟨0, _⟩ => rfl | ⟨1, _⟩ => rfl | ⟨2, _⟩ => rfl)

/-- The gain entry read for `(b, s, c)` is `c`. -/
theorem gain_index (b : Fin 4) (s : Fin 4096) (c : Fin 2048) :
    idx_main_v10 (idx_main_v11 (ix3 b s c)) = ix1 c :=
  funext fun a => Fin.ext (by match a with | ⟨0, _⟩ => rfl)

/-- The reference's result is `normStack` of its two arguments. -/
theorem result_eq (x : (⟨S4x4096x2048, .f32⟩ : BufTy).Contents (Elt Ideal)) (g : (⟨S2048, .f32⟩ : BufTy).Contents (Elt Ideal)) :
    val_main_v12 (F := Ideal) x g = normStack x g := by
  funext i
  obtain ⟨b, s, c, rfl⟩ : ∃ (b : Fin 4) (s : Fin 4096) (c : Fin 2048), i = ix3 b s c := ⟨i 0, i 1, i 2, eq_ix3 i⟩
  rw [val_main_v12_apply, val_main_v9_apply, val_main_v8_apply, val_main_v7_apply, val_main_v6_apply,
    val_main_v4_apply, val_main_v2_apply, val_main_v1_apply, val_main_v3_apply, val_main_cst_0_apply,
    val_main_v5_apply, val_main_cst_1_apply, val_main_cst_apply, val_main_v11_apply, val_main_v10_apply,
    gain_index, normStack_apply]
  simp only [val_main_v0_apply, sum_index, Ideal.mulf_def, Ideal.addf_def, Ideal.hostDivf_def,
    Ideal.hostUnary_rsqrt_def, Ideal.ofBits_def, Ideal.ofBits_zero_f32, zero_add]
  rfl

end Cert.RmsNorm.Reference

end
-- ==== Proof.lean ====
/-
  RMS normalisation: the kernel against the reference, over the extended reals.

  Both programs compute, for every row `(b, s)` of the stack `x : [4, 4096, 2048]` and every column `c`,
      out[b, s, c] = (x[b, s, c] · rsqrt ((Σ_k x[b, s, k]²) / 2048 + ε)) · g[c],
  with the same float words for `2048` and `ε`, the same order of the two products, a quotient on both sides and the
  same reciprocal square root. The reference does it on the stack in one pass. The kernel flattens the stack to
  `[16384, 2048]`, gives each of 32 grid points 512 whole rows, and restores the stack; a row's scale depends on that
  row alone, so the tiling does not change the value, and the lane sum from a zero accumulator is the reference's sum
  from a zero initial value. No algebraic law beyond `0 + s = s` is used, so the finiteness of the inputs is never
  opened.

  `Spec` states the function (`normRows` on a matrix, `normStack` on the stack) and that flattening, normalising and
  restoring is `normStack`; `Payload` reads the kernel body's stored value at an entry; `KernelValue` goes from the
  blocks to the result array and through the final reshape; `RefValue` reads the reference's operations at an entry.
  The three frames are the generated ones (the reference's is its run with the result dropped), and the ideal pass
  rewrote nothing, so `preserves` is trivial.
-/
import proofs.«116455_j56607668961691_1_alg».proof.Defs
import proofs.«116455_j56607668961691_1_alg».proof.Proof.Gen.Kernel
import proofs.«116455_j56607668961691_1_alg».proof.Proof.Gen.Kernel.Skeleton
import proofs.«116455_j56607668961691_1_alg».proof.Proof.Gen.Kernel.Launch
import proofs.«116455_j56607668961691_1_alg».proof.Proof.Gen.Kernel.Points
import proofs.«116455_j56607668961691_1_alg».proof.Proof.Gen.Kernel.Frame
import proofs.«116455_j56607668961691_1_alg».proof.Proof.Gen.KernelIdeal
import proofs.«116455_j56607668961691_1_alg».proof.Proof.Gen.KernelIdeal.Skeleton
import proofs.«116455_j56607668961691_1_alg».proof.Proof.Gen.KernelIdeal.Launch
import proofs.«116455_j56607668961691_1_alg».proof.Proof.Gen.KernelIdeal.Points
import proofs.«116455_j56607668961691_1_alg».proof.Proof.Gen.KernelIdeal.Frame
import proofs.«116455_j56607668961691_1_alg».proof.Proof.Gen.ReferenceIdeal
import proofs.«116455_j56607668961691_1_alg».proof.Proof.Gen.ReferenceIdeal.Run
import proofs.«116455_j56607668961691_1_alg».proof.Proof.Gen.ReferenceIdeal.Read
import proofs.«116455_j56607668961691_1_alg».proof.Proof.Gen.Pre_finite_inputs
import proofs.«116455_j56607668961691_1_alg».proof.Proof.KernelValue
import proofs.«116455_j56607668961691_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel (hKernel := Cert.Kernel.Gen.facts)
    (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

/-- The reference's frame is its run with the result dropped. -/
theorem frame_referenceIdeal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both idealized programs end at `normStack` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.RmsNorm.normStack
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.RmsNorm.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v12_eq]
  exact Cert.RmsNorm.Reference.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
